-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S16x128 : Shape := ⟨2, ![16, 128]⟩
abbrev S256x4096 : Shape := ⟨2, ![256, 4096]⟩
abbrev S8x128 : Shape := ⟨2, ![8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8x128, .f32⟩
  | .local _ .vmem, ⟨5, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .i1⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_cst_1 : Ref sig .tc := ⟨.hbm, 15, rfl⟩
abbrev main_call2_v0 : Ref sig .tc := ⟨.hbm, 16, rfl⟩
abbrev main_call2_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts₀]

class Facts : Prop extends Facts₀ where

variable [Facts]
-- ==== Proof.MarginSum.lean ====
/-
  The mathematics both programs compute, stated once and of no program.

  For one pair of extended reals `(x, t)` the loss is
      max 0 ( |x - rne t| - |x - z| + (eps if x - rne t ≥ 0 else 0) ),   z = ⌈x⌉ if x - rne t ≥ 0 else ⌊x⌋,
  with `rne` rounding to nearest, ties to even, and `eps` the binary32 number nearest 1e-6.  The quantity of
  interest is the SUM of that loss over all 8192 × 4096 pairs (afterwards divided by 2^25).

  One side adds the pairs up in one sweep over the whole index set; the other adds them up 256 rows at a
  time, thirty-two row blocks in all.  Addition of extended reals is commutative and associative (the
  convention ⊤ + ⊥ = ⊥ included), so every grouping of a finite sum has the same value: `sum_rowBlocks`
  regroups a sum over 8192 × 4096 indices as the sum over the 32 blocks of the sum over each block's
  256 × 4096 indices.  No finiteness of the summands is used anywhere.
-/
import Idealize.ShloMosaic.PureOps.Ideal
import Idealize.ShloMosaic.PureOps.Ideal.Laws
import Idealize.ShloMosaic.Lib.ValueIdx

noncomputable section

namespace Cert.MarginSum

open Idealize.ShloMosaic Idealize.ShloMosaic.ValueIdx

/-- The loss of one pair `(x, t)`: the operations are the exact ones on the extended reals. -/
def lossE (x t : Ideal .f32) : Ideal .f32 :=
  FloatOps.maximumf (FloatOps.ofBits .f32 0x00000000#32)
    (FloatOps.addf
      (FloatOps.subf (FloatOps.absf (FloatOps.subf x (FloatOps.roundeven t)))
        (FloatOps.absf (FloatOps.subf x
          (Scalar.select (FloatOps.cmpf .oge (FloatOps.subf x (FloatOps.roundeven t)) (FloatOps.ofBits .f32 0x00000000#32))
            (FloatOps.ceil x) (FloatOps.floor x)))))
      (Scalar.select (FloatOps.cmpf .oge (FloatOps.subf x (FloatOps.roundeven t)) (FloatOps.ofBits .f32 0x00000000#32))
        (FloatOps.ofBits .f32 0x358637BD#32) (FloatOps.ofBits .f32 0x00000000#32)))

/-- The sum of the loss over one 256 × 4096 block of pairs. -/
def blockSum (x t : FVec Ideal ⟨2, ![256, 4096]⟩ .f32) : EReal := ∑ y, lossE (x y) (t y)

/-- Row `256·b + r` of the 8192 rows: row `r` of row block `b`. -/
def rowOf (b : Fin 32) (r : Fin 256) : Fin 8192 := ⟨256 * b.val + r.val, by have := b.isLt; have := r.isLt; omega⟩

theorem rowOf_val (b : Fin 32) (r : Fin 256) : (rowOf b r).val = 256 * b.val + r.val := rfl

/-- A sum over `a·b` consecutive naturals is the sum over `a` runs of `b` of them. -/
theorem sum_fin_mul {M : Type*} [AddCommMonoid M] (a b : Nat) (g : Fin (a * b) → M) :
    ∑ p, g p = ∑ s : Fin a, ∑ r : Fin b, g ⟨b * s.val + r.val, by
      have hs := s.isLt; have hr := r.isLt
      calc b * s.val + r.val < b * s.val + b := by omega
        _ = b * (s.val + 1) := by ring
        _ ≤ b * a := Nat.mul_le_mul_left _ hs
        _ = a * b := Nat.mul_comm _ _⟩ := by
  rw [← Equiv.sum_comp (finProdFinEquiv (m := a) (n := b)) g, Fintype.sum_prod_type]
  refine Finset.sum_congr rfl fun s _ => Finset.sum_congr rfl fun r _ => congrArg g (Fin.ext ?_)
  show r.val + b * s.val = b * s.val + r.val
  omega

/-- The sum over the 8192 rows is the sum over the 32 row blocks of the sum over a block's 256 rows. -/
theorem sum_rows {M : Type*} [AddCommMonoid M] (g : Fin 8192 → M) :
    ∑ p, g p = ∑ b : Fin 32, ∑ r : Fin 256, g (rowOf b r) :=
  sum_fin_mul 32 256 g

/-- REGROUPING. The sum of `f` over all 8192 × 4096 indices is the sum over the 32 row blocks of the sum over
    the block's own 256 × 4096 indices, read at row `256·b + r`. -/
theorem sum_rowBlocks {M : Type*} [AddCommMonoid M] (f : (⟨2, ![8192, 4096]⟩ : Shape).Idx → M) :
    ∑ j, f j = ∑ b : Fin 32, ∑ y : (⟨2, ![256, 4096]⟩ : Shape).Idx, f (ix2 (rowOf b (y 0)) (y 1)) := by
  rw [sum_idx2, sum_rows]
  refine Finset.sum_congr rfl fun b _ => ?_
  rw [sum_idx2]

end Cert.MarginSum

end
-- ==== Proof.StepValue.lean ====
/-
  The arithmetic of one grid step, read at the one entry that matters.

  At every grid step the kernel body forms the 256 × 4096 block of losses of its two input blocks, sums each row
  (a sum over the 4096 lanes), sums the 256 row sums, and adds that number to the entry `(0, 0)` of the running
  8 × 128 block.  On the extended reals a lane sum is a finite sum over the reduced coordinate and the sum of the
  row sums is the sum over the whole block, so the value stored at `(0, 0)` is what was there plus the block sum
  `MarginSum.blockSum`.
-/
import proofs.«121235_j88390426951926_1_alg».proof.Proof.Gen.KernelIdeal.Skeleton
import proofs.«121235_j88390426951926_1_alg».proof.Proof.MarginSum
import Idealize.ShloMosaic.Lib.Pipeline.Value
import Idealize.ShloMosaic.Lib.ValueIdx
import Idealize.ShloMosaic.PureOps.Ideal.Laws

noncomputable section

namespace Cert.KernelIdeal.StepValue

open Cert.KernelIdeal Cert.KernelIdeal.Gen Idealize.ShloMosaic Idealize.ShloMosaic.ValueIdx Cert.MarginSum

/-- The block of losses of two input blocks, element by element. -/
def lossBlock (x0 x1 : Vec Ideal S256x4096 .f32) : FVec Ideal S256x4096 .f32 := fun y => lossE (x0 y) (x1 y)

/-- The stored value as the body computes it: the old 1 × 1 entry plus the two-stage sum of the loss block. -/
theorem pay_eq (x0 x1 : Vec Ideal S256x4096 .f32) (z : Vec Ideal S1x1 .f32) :
    k0_pay2 (F := Ideal) x0 x1 z
      = addf (shapeCast S1x1 z shapeCasts_S1x1_S1x1)
          (shapeCast S1x1
            (multiReduction .add [0] S1
              (shapeCast S256x1 (multiReduction .add [1] S256 (lossBlock x0 x1) 0x00000000#32 reduces_S256x4096_S256 (.inl rfl) rfl)
                shapeCasts_S256_S256x1)
              0x00000000#32 reduces_S256x1_S1 (.inl rfl) rfl)
            shapeCasts_S1_S1x1) := rfl

/-- The row sum of the loss block at row `a`, then the sum of the 256 row sums, is the sum over the block. -/
theorem twoStage_eq (x0 x1 : Vec Ideal S256x4096 .f32) :
    (multiReduction .add [0] S1
        (shapeCast S256x1 (multiReduction .add [1] S256 (lossBlock x0 x1) 0x00000000#32 reduces_S256x4096_S256 (.inl rfl) rfl)
          shapeCasts_S256_S256x1)
        0x00000000#32 reduces_S256x1_S1 (.inl rfl) rfl) (ix1 0) = blockSum x0 x1 := by
  refine (Ideal.multiReduction_add_total _ 0x00000000#32 reduces_S256x1_S1 (fun b => by fin_cases b; rfl) (.inl rfl) rfl (ix1 0)).trans ?_
  unfold blockSum
  rw [sum_idx2, sum_idx2]
  refine Finset.sum_congr rfl fun a _ => ?_
  rw [Fin.sum_univ_one]
  rw [shapeCast_apply _ shapeCasts_S256_S256x1 (ix2 a 0) (ix1 a)
    (by rw [Shape.rowMajor_val_one, Shape.rowMajor_val_two]; show a.val = a.val * 1 + 0; omega)]
  refine (Ideal.multiReduction_add_single (lossBlock x0 x1) 0x00000000#32 reduces_S256x4096_S256 (.inl rfl) rfl (ix1 a)).trans ?_
  refine Finset.sum_congr rfl fun k _ => ?_
  have e : reduces_S256x4096_S256.lift (ix1 a) k = ix2 a k :=
    funext fun d => Fin.ext (by match d with | ⟨0, _⟩ => rfl | ⟨1, _⟩ => rfl)
  rw [e]
  rfl

/-- THE STEP. The value the body stores at entry `(0, 0)` is the entry it read there plus the block sum. -/
theorem pay_entry (x0 x1 : Vec Ideal S256x4096 .f32) (z : Vec Ideal S1x1 .f32) :
    k0_pay2 (F := Ideal) x0 x1 z (ix2 0 0) = z (ix2 0 0) + blockSum x0 x1 := by
  rw [pay_eq]
  show shapeCast S1x1 z shapeCasts_S1x1_S1x1 (ix2 0 0) + shapeCast S1x1 _ shapeCasts_S1_S1x1 (ix2 0 0) = _
  rw [shapeCast_self, shapeCast_apply _ shapeCasts_S1_S1x1 (ix2 0 0) (ix1 0) rfl, twoStage_eq]

end Cert.KernelIdeal.StepValue

end
-- ==== Proof.CornerValue.lean ====
/-
  What each of the body's two cases leaves at entry `(0, 0)` of the running 8 × 128 block.

  At the first step of a core's sixteen the body overwrites the whole block with zeros, reads the 1 × 1 corner
  back and stores corner + block sum there: the corner ends at zero's word plus the block sum.  At every later
  step it only reads the corner the step before left and stores corner + block sum.  Both are the LAST store of
  their run and it covers exactly the corner, so the corner reads that store's value (what the earlier zero
  store or the earlier contents hold elsewhere does not enter).
-/
import proofs.«121235_j88390426951926_1_alg».proof.Proof.Gen.KernelIdeal.Frame
import proofs.«121235_j88390426951926_1_alg».proof.Proof.StepValue
import Idealize.ShloMosaic.Lib.Pipeline.Value
import Idealize.ShloMosaic.Lib.Tactic

noncomputable section

namespace Cert.KernelIdeal.CornerValue

open Cert.KernelIdeal Cert.KernelIdeal.Gen Cert.KernelIdeal.StepValue Cert.MarginSum
open Idealize.ShloMosaic Idealize.ShloMosaic.TcCoe Idealize.ShloMosaic.ValueIdx Idealize.SL.Sem

theorem hz : (![0, 0] : Fin 2 → Nat) = fun _ => 0 := funext fun a => by fin_cases a <;> rfl

/-- The 1 × 1 rectangle at the block's origin. -/
abbrev corner : Rect S8x128 := Rect.unit (s := S8x128) ![0, 0] S1x1.size inb_S8x128_S1x1_0_0

/-- Its one element is the block's entry `(0, 0)`. -/
theorem corner_emb : corner.emb (ix2 0 0) = (ix2 0 0 : S8x128.Idx) :=
  funext fun a => Fin.ext (by match a with | ⟨0, _⟩ => rfl | ⟨1, _⟩ => rfl)

/-- A LATER step: the corner ends at what the step before left there plus the block sum. -/
theorem corner_B (c : Dev nD) (i : grid0.Coords) (a2 : Memref sig .tc .vmem S256x4096 .f32) (h2 : a2.IsWhole)
    (a3 : Memref sig .tc .vmem S256x4096 .f32) (h3 : a3.IsWhole) (a4 : Memref sig .tc .vmem S8x128 .f32) (h4 : a4.IsWhole)
    (hc : ¬cond0_0 i) (x0 x1 : Vec Ideal S256x4096 .f32) (xo : Vec Ideal S8x128 .f32) :
    out0_B_2 (F := Ideal) c i a2 h2 a3 h3 a4 h4 hc x0 x1 xo (ix2 0 0) = xo (ix2 0 0) + blockSum x0 x1 := by
  unfold out0_B_2 kernelRun0_B
  dsimp only
  refine (congrArg _ corner_emb.symm).trans ?_
  refine (View.read_writes_cons_emb _ _ corner _ _ (ix2 0 0)).trans ?_
  rw [pay_entry]
  simp only [View.readAt_eq_ld, h2.read_unread, h3.read_unread, h4.read_unread, View.ld_unit_zero (S := S256x4096) hz]
  show xo (corner.emb (ix2 0 0)) + _ = _
  rw [corner_emb]

/-- The FIRST step of a core's run: the corner ends at zero's word plus the block sum. -/
theorem corner_A (c : Dev nD) (i : grid0.Coords) (a2 : Memref sig .tc .vmem S256x4096 .f32) (h2 : a2.IsWhole)
    (a3 : Memref sig .tc .vmem S256x4096 .f32) (h3 : a3.IsWhole) (a4 : Memref sig .tc .vmem S8x128 .f32) (h4 : a4.IsWhole)
    (hc : cond0_0 i) (x0 x1 : Vec Ideal S256x4096 .f32) :
    out0_A_2 (F := Ideal) c i a2 h2 a3 h3 a4 h4 hc x0 x1 (ix2 0 0)
      = FloatOps.ofBits (F := Ideal) .f32 0x00000000#32 + blockSum x0 x1 := by
  unfold out0_A_2 kernelRun0_A
  dsimp only
  sl_unfold_words
  refine (congrArg _ corner_emb.symm).trans ?_
  refine (View.read_writes_cons_emb _ _ corner _ _ (ix2 0 0)).trans ?_
  rw [pay_entry]
  rw [View.readCov_eq_canon_ld _ _ _ (fun y => ⟨_, List.mem_singleton_self _, View.mem_set_unit_zero hz inb_S8x128_S8x128_0_0 y⟩),
    View.canon_unit_zero hz]
  simp only [View.readAt_eq_ld, h2.read_unread, h3.read_unread, View.ld_unit_zero (S := S256x4096) hz]
  rfl

end Cert.KernelIdeal.CornerValue

end
-- ==== Proof.RunningCorner.lean ====
/-
  The running corner over the thirty-two grid steps.

  The grid runs core 0's sixteen steps (points 0 … 15) and then core 1's (points 16 … 31); the output block is
  kept in place between consecutive steps of one core.  The corner entry `(0, 0)` of that block is reset to
  zero's word plus the step's block sum at the points divisible by 16 and grows by the step's block sum at every
  other point.  So after point `16·q + j` (`j < 16`) it is zero's word plus the sum of the block sums of points
  `16·q, …, 16·q + j`: by induction on `j`, with associativity of addition the only law used.
-/
import proofs.«121235_j88390426951926_1_alg».proof.Proof.CornerValue

noncomputable section

namespace Cert.KernelIdeal.RunningCorner

open Cert.KernelIdeal Cert.KernelIdeal.Gen Cert.KernelIdeal.CornerValue Cert.MarginSum
open Idealize.ShloMosaic Idealize.ShloMosaic.TcCoe Idealize.ShloMosaic.ValueIdx Idealize.SL.Sem

variable (m : (ℓ : Loc nD τ sig) → Buf (Elt Ideal) ℓ)

/-- The two input blocks of grid point `t`, at their literal type. -/
abbrev xblk (c : Dev nD) (t : Fin cfg0.N) : Vec Ideal S256x4096 .f32 := iblk m c 0 t
abbrev tblk (c : Dev nD) (t : Fin cfg0.N) : Vec Ideal S256x4096 .f32 := iblk m c 1 t

/-- The block sum of grid point `n` (zero past the grid, where it is never used). -/
def stepSum (c : Dev nD) (n : Nat) : EReal :=
  if h : n < cfg0.N then blockSum (xblk m c ⟨n, h⟩) (tblk m c ⟨n, h⟩) else 0

theorem stepSum_of_lt (c : Dev nD) (n : Nat) (h : n < cfg0.N) :
    stepSum m c n = blockSum (xblk m c ⟨n, h⟩) (tblk m c ⟨n, h⟩) := dif_pos h

/-- The corner after point `n`. -/
abbrev cornerAt (c : Dev nD) (n : Nat) (h : n < cfg0.N) : EReal := outsAt0 m c n h (ix2 0 0)

/-- At a point divisible by 16 the corner is reset. -/
theorem corner_reset (c : Dev nD) (n : Nat) (h : n < cfg0.N) (h0 : n % 16 = 0) :
    cornerAt m c n h = FloatOps.ofBits (F := Ideal) .f32 0x00000000#32 + stepSum m c n := by
  rw [stepSum_of_lt m c n h]
  refine (congrFun (outsAt0_A m c ⟨n, h⟩ h0) (ix2 0 0)).trans ?_
  exact corner_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    ((hcond0_0 ⟨n, h⟩).mpr h0) (iblk m c 0 ⟨n, h⟩) (iblk m c 1 ⟨n, h⟩)

/-- At every other point it grows by the point's block sum. -/
theorem corner_step (c : Dev nD) (n : Nat) (h : n + 1 < cfg0.N) (h0 : ¬(n + 1) % 16 = 0) :
    cornerAt m c (n + 1) h = cornerAt m c n (Nat.lt_of_succ_lt h) + stepSum m c (n + 1) := by
  rw [stepSum_of_lt m c (n + 1) h]
  refine (congrFun (outsAt0_B m c ⟨n + 1, h⟩ h0) (ix2 0 0)).trans ?_
  exact corner_B c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (fun h' => h0 ((hcond0_0 ⟨n + 1, h⟩).mp h')) (iblk m c 0 ⟨n + 1, h⟩) (iblk m c 1 ⟨n + 1, h⟩)
    (outsAt0 m c n (Nat.lt_of_succ_lt h))

/-- THE FOLD: after point `16·q + j` the corner is zero's word plus the block sums of the run's points so far. -/
theorem corner_run (c : Dev nD) (q : Nat) : ∀ (j : Nat) (_ : j < 16) (h : 16 * q + j < cfg0.N),
    cornerAt m c (16 * q + j) h
      = FloatOps.ofBits (F := Ideal) .f32 0x00000000#32 + ∑ s ∈ Finset.range (j + 1), stepSum m c (16 * q + s)
  | 0, _, h => by
    rw [Finset.sum_range_one]
    exact corner_reset m c (16 * q + 0) h (by omega)
  | j + 1, hj, h => by
    have hne : ¬(16 * q + j + 1) % 16 = 0 := by omega
    have ih := corner_run c q j (by omega) (Nat.lt_of_succ_lt h)
    have hs := corner_step m c (16 * q + j) h hne
    rw [Finset.sum_range_succ _ (j + 1)]
    exact hs.trans (by rw [ih]; exact add_assoc _ _ _)

end Cert.KernelIdeal.RunningCorner

end
-- ==== Proof.OutputArray.lean ====
/-
  The 16 × 128 output array after the run, at the two entries the program goes on to read.

  The output window's block index is the core number: block 0 (rows 0 … 7) is written back once, after point 15,
  and block 1 (rows 8 … 15) once, after point 31.  What is written back is the running 8 × 128 block as that
  point leaves it.  Hence entry `(0, 0)` of the array ends at the corner after point 15 and entry `(8, 0)` at
  the corner after point 31.
-/
import proofs.«121235_j88390426951926_1_alg».proof.Proof.Gen.KernelIdeal.Frame
import Idealize.ShloMosaic.Lib.Pipeline.Value
import Idealize.ShloMosaic.Lib.ValueIdx

noncomputable section

namespace Cert.KernelIdeal.OutputArray

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem N32 : cfg0.N = 32 := N_0

theorem lt15 : 15 < cfg0.N := by rw [N32]; decide
theorem lt31 : 31 < cfg0.N := by rw [N32]; decide

/-- The last point of core 0's run and of core 1's. -/
abbrev last0 : Fin cfg0.N := ⟨15, lt15⟩
abbrev last1 : Fin cfg0.N := ⟨31, lt31⟩

/-- The output window's block index at point `t`: the core number `t / 16`, and `0` across. -/
theorem idx_out : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- The running block after a point named twice. -/
theorem outsAt0_congr (c : Dev nD) (n n' : Nat) (h : n < cfg0.N) (h' : n' < cfg0.N) (e : n = n') :
    outsAt0 m c n h = outsAt0 m c n' h' := by subst e; rfl

/-- The array the run leaves, as one function of the index: rows 0 … 7 from the block after point 15, rows
    8 … 15 from the block after point 31. -/
def final (c : Dev nD) : Vec Ideal S16x128 .f32 := fun i =>
  if (i 0).val < 8 then outsAt0 m c 15 lt15 (ix2 ⟨(i 0).val % 8, Nat.mod_lt _ (by decide)⟩ ⟨(i 1).val, (i 1).isLt⟩)
  else outsAt0 m c 31 lt31 (ix2 ⟨(i 0).val % 8, Nat.mod_lt _ (by decide)⟩ ⟨(i 1).val, (i 1).isLt⟩)

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- WHAT A WRITE-BACK WRITES is that point's block of `final`. -/
theorem flushed_eq (c : Dev nD) (t : Fin cfg0.N) (hf : (cfg0.win 2).flush t = true) :
    (dats m 0 c).flushed 2 t = ((cfg0.win 2).blk t).view.read (Elt Ideal) (final m c) := by
  have hN : cfg0.N = 32 := N32
  have h15 : t.val % 16 = 15 := (flush0_2 t).mp hf
  have htl : t.val < 32 := lt_of_lt_of_eq t.isLt hN
  show (cfg0.win 2).cut (grid0.coords t) ((dats m 0 c).after 2 t) = _
  rw [after0_2]
  obtain ⟨e0, e1⟩ := idx_out t
  funext j
  have hj0 : (j 0).val < 8 := (j 0).isLt
  have hj1 : (j 1).val < 128 := (j 1).isLt
  show outsAt0 m c t.val t.isLt j = final m c (((cfg0.win 2).blk t).view.emb j)
  have hemb : ((cfg0.win 2).blk t).view.emb j = (ix2 ⟨8 * (t.val / 16) + (j 0).val, by omega⟩ ⟨(j 1).val, hj1⟩ : S16x128.Idx) := by
    funext a; apply Fin.ext
    match a with
    | ⟨0, _⟩ => show win0_2.index t (0 : Fin 2) * 8 + 1 * (j 0).val = 8 * (t.val / 16) + (j 0).val; rw [e0]; omega
    | ⟨1, _⟩ => show win0_2.index t (1 : Fin 2) * 128 + 1 * (j 1).val = (j 1).val; rw [e1]; omega
  rw [hemb]
  have hj : (ix2 ⟨(8 * (t.val / 16) + (j 0).val) % 8, Nat.mod_lt _ (by decide)⟩ ⟨(j 1).val, hj1⟩ : S8x128.Idx) = j :=
    funext fun a => Fin.ext (by
      match a with
      | ⟨0, _⟩ => show (8 * (t.val / 16) + (j 0).val) % 8 = (j 0).val; omega
      | ⟨1, _⟩ => rfl)
  unfold final
  rcases (by omega : t.val = 15 ∨ t.val = 31) with ht | ht
  · rw [if_pos (by show 8 * (t.val / 16) + (j 0).val < 8; omega)]
    show _ = outsAt0 m c 15 lt15 (ix2 ⟨(8 * (t.val / 16) + (j 0).val) % 8, _⟩ ⟨(j 1).val, _⟩)
    rw [hj, outsAt0_congr m c t.val 15 t.isLt lt15 ht]
  · rw [if_neg (by show ¬(8 * (t.val / 16) + (j 0).val < 8); omega)]
    show _ = outsAt0 m c 31 lt31 (ix2 ⟨(8 * (t.val / 16) + (j 0).val) % 8, _⟩ ⟨(j 1).val, _⟩)
    rw [hj, outsAt0_congr m c t.val 31 t.isLt lt31 ht]

/-- Entry `(0, 0)` of the array ends at the corner after point 15. -/
theorem entry_0_0 (c : Dev nD) :
    (dats m 0 c).arrAt 2 cfg0.N (ix2 0 0 : S16x128.Idx) = outsAt0 m c 15 lt15 (ix2 0 0) := by
  refine ((dats m 0 c).arrAt_apply_of_mem 2 (final m c) (flushed_eq m c) cfg0.N last0 (ix2 0 0 : S16x128.Idx) last0.isLt
    ((flush0_2 last0).mpr rfl) ?_).trans ?_
  · rw [mem_blk]
    obtain ⟨e0, e1⟩ := idx_out last0
    intro a
    match a with
    | ⟨0, _⟩ => show win0_2.index last0 (0 : Fin 2) * 8 ≤ 0 ∧ 0 < win0_2.index last0 (0 : Fin 2) * 8 + 8; rw [e0]; decide
    | ⟨1, _⟩ => show win0_2.index last0 (1 : Fin 2) * 128 ≤ 0 ∧ 0 < win0_2.index last0 (1 : Fin 2) * 128 + 128; rw [e1]; decide
  · rfl

/-- Entry `(8, 0)` of the array ends at the corner after point 31. -/
theorem entry_8_0 (c : Dev nD) :
    (dats m 0 c).arrAt 2 cfg0.N (ix2 8 0 : S16x128.Idx) = outsAt0 m c 31 lt31 (ix2 0 0) := by
  refine ((dats m 0 c).arrAt_apply_of_mem 2 (final m c) (flushed_eq m c) cfg0.N last1 (ix2 8 0 : S16x128.Idx) last1.isLt
    ((flush0_2 last1).mpr rfl) ?_).trans ?_
  · rw [mem_blk]
    obtain ⟨e0, e1⟩ := idx_out last1
    intro a
    match a with
    | ⟨0, _⟩ => show win0_2.index last1 (0 : Fin 2) * 8 ≤ 8 ∧ 8 < win0_2.index last1 (0 : Fin 2) * 8 + 8; rw [e0]; decide
    | ⟨1, _⟩ => show win0_2.index last1 (1 : Fin 2) * 128 ≤ 0 ∧ 0 < win0_2.index last1 (1 : Fin 2) * 128 + 128; rw [e1]; decide
  · rfl

end Cert.KernelIdeal.OutputArray

end
-- ==== Proof.KernelResult.lean ====
/-
  The idealized kernel's result.

  After the pallas_call the program slices entries `(0, 0)` and `(8, 0)` out of the 16 × 128 output array, adds
  them and divides by the word of 2^25.  Entry `(0, 0)` is the corner after point 15 — zero's word plus the block
  sums of points 0 … 15 — and entry `(8, 0)` the corner after point 31 — zero's word plus those of points
  16 … 31.  The input blocks of point `t` are rows `256·t … 256·t + 255` of the two arguments, so the thirty-two
  block sums together run over every index of the arguments exactly once, and by the regrouping of
  `MarginSum.sum_rowBlocks` the two corners add up to the total loss.  Zero's word is the real number 0.
-/
import proofs.«121235_j88390426951926_1_alg».proof.Proof.RunningCorner
import proofs.«121235_j88390426951926_1_alg».proof.Proof.OutputArray
import Idealize.ShloMosaic.Lib.StableHlo.Run

noncomputable section

namespace Cert.KernelIdeal.Result

open Cert.KernelIdeal Cert.KernelIdeal.Gen Cert.KernelIdeal.RunningCorner Cert.KernelIdeal.OutputArray Cert.MarginSum
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The two arguments as the kernel finds them, at their literal type. -/
abbrev argX (c : Dev nD) : Vec Ideal S8192x4096 .f32 := m ((c : Thread nD τ).loc main_arg0)
abbrev argT (c : Dev nD) : Vec Ideal S8192x4096 .f32 := m ((c : Thread nD τ).loc main_arg1)

/-- The input windows' block index at point `t` is `t` itself down the rows and `0` across. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Point `t`'s block of the first argument, entry `y`, is the argument at row `256·t + y₀`, column `y₁`. -/
theorem xblk_apply (c : Dev nD) (t : Fin 32) (y : S256x4096.Idx) :
    xblk m c ⟨t.val, lt_of_lt_of_eq t.isLt N32.symm⟩ y = argX m c (ix2 (rowOf t (y 0)) (y 1)) := by
  obtain ⟨e0', e1, -, -⟩ := idx_in ⟨t.val, lt_of_lt_of_eq t.isLt N32.symm⟩
  have e0 : win0_0.index ⟨t.val, lt_of_lt_of_eq t.isLt N32.symm⟩ (0 : Fin 2) = t.val := e0'
  have hy0 : (y 0).val < 256 := (y 0).isLt
  show V m c main_arg0 (((cfg0.win 0).blk ⟨t.val, lt_of_lt_of_eq t.isLt N32.symm⟩).view.emb y) = _
  rw [V_main_arg0]
  refine congrArg (argX m c) (funext fun a => Fin.ext ?_)
  match a with
  | ⟨0, _⟩ => show win0_0.index ⟨t.val, _⟩ (0 : Fin 2) * 256 + 1 * (y 0).val = 256 * t.val + (y 0).val; rw [e0]; omega
  | ⟨1, _⟩ => show win0_0.index ⟨t.val, _⟩ (1 : Fin 2) * 4096 + 1 * (y 1).val = (y 1).val; rw [e1]; omega

/-- The same for the second argument. -/
theorem tblk_apply (c : Dev nD) (t : Fin 32) (y : S256x4096.Idx) :
    tblk m c ⟨t.val, lt_of_lt_of_eq t.isLt N32.symm⟩ y = argT m c (ix2 (rowOf t (y 0)) (y 1)) := by
  obtain ⟨-, -, e0', e1⟩ := idx_in ⟨t.val, lt_of_lt_of_eq t.isLt N32.symm⟩
  have e0 : win0_1.index ⟨t.val, lt_of_lt_of_eq t.isLt N32.symm⟩ (0 : Fin 2) = t.val := e0'
  have hy0 : (y 0).val < 256 := (y 0).isLt
  show V m c main_arg1 (((cfg0.win 1).blk ⟨t.val, lt_of_lt_of_eq t.isLt N32.symm⟩).view.emb y) = _
  rw [V_main_arg1]
  refine congrArg (argT m c) (funext fun a => Fin.ext ?_)
  match a with
  | ⟨0, _⟩ => show win0_1.index ⟨t.val, _⟩ (0 : Fin 2) * 256 + 1 * (y 0).val = 256 * t.val + (y 0).val; rw [e0]; omega
  | ⟨1, _⟩ => show win0_1.index ⟨t.val, _⟩ (1 : Fin 2) * 4096 + 1 * (y 1).val = (y 1).val; rw [e1]; omega

/-- The block sum of point `t` is the loss summed over rows `256·t … 256·t + 255` of the arguments. -/
theorem stepSum_eq (c : Dev nD) (t : Fin 32) :
    stepSum m c t.val = ∑ y : S256x4096.Idx, lossE (argX m c (ix2 (rowOf t (y 0)) (y 1))) (argT m c (ix2 (rowOf t (y 0)) (y 1))) := by
  rw [stepSum_of_lt m c t.val (lt_of_lt_of_eq t.isLt N32.symm)]
  unfold blockSum
  refine Finset.sum_congr rfl fun y _ => ?_
  rw [xblk_apply, tblk_apply]

/-- THE TWO CORNERS TOGETHER are the total loss: thirty-two block sums, each index of the arguments once. -/
theorem corners_eq_total (c : Dev nD) :
    (FloatOps.ofBits (F := Ideal) .f32 0x00000000#32 + ∑ s ∈ Finset.range 16, stepSum m c (16 * 0 + s))
      + (FloatOps.ofBits (F := Ideal) .f32 0x00000000#32 + ∑ s ∈ Finset.range 16, stepSum m c (16 * 1 + s))
      = FloatOps.ofBits (F := Ideal) .f32 0x00000000#32 + ∑ j : S8192x4096.Idx, lossE (argX m c j) (argT m c j) := by
  have hz : FloatOps.ofBits (F := Ideal) .f32 0x00000000#32 = (0 : EReal) := Ideal.ofBits_zero_f32
  rw [hz, zero_add, zero_add, zero_add]
  have h32 : ∑ s ∈ Finset.range (16 + 16), stepSum m c s
      = ∑ s ∈ Finset.range 16, stepSum m c s + ∑ s ∈ Finset.range 16, stepSum m c (16 + s) := Finset.sum_range_add _ 16 16
  simp only [Nat.mul_zero, Nat.zero_add, Nat.mul_one]
  rw [← h32, Finset.sum_range (fun s => stepSum m c s), sum_rowBlocks]
  exact Finset.sum_congr rfl fun t _ => stepSum_eq m c t

/-- The result buffer is one the pallas_call does not stage. -/
theorem v6_rest : main_v6 ∈ Pipeline.restRefs sig cfg0.spec :=
  Pipeline.mem_restRefs_of main_v6 rfl (by decide)

/-- The 16 × 128 output array after the run, at its literal type. -/
abbrev outArr (c : Dev nD) : Vec Ideal S16x128 .f32 := (dats m 0 c).arrAt 2 cfg0.N

theorem outArr_0_0 (c : Dev nD) : outArr m c (ix2 0 0) = outsAt0 m c 15 lt15 (ix2 0 0) := entry_0_0 m c
theorem outArr_8_0 (c : Dev nD) : outArr m c (ix2 8 0) = outsAt0 m c 31 lt31 (ix2 0 0) := entry_8_0 m c

/-- THE HOST TAIL at its one index: the two sliced entries of the output array, added, over the word of 2^25. -/
theorem tail_eq (c : Dev nD) :
    Pipeline.afterTail₀ cfgs (dats m) 0 (V0 m) [hostOps1] c main_v6
      = fun _ => FloatOps.hostDivf (outArr m c (ix2 0 0) + outArr m c (ix2 8 0))
          (FloatOps.ofBits (F := Ideal) .f32 0x4C000000#32) := by
  unfold Pipeline.afterTail₀
  show StableHlo.after hostOps1 _ (Proc.devRef .tc main_v6) = _
  after_results
  rw [Pipeline.withArrays_arr spec0 launch0.win.arr_inj c _ _ 2]
  funext i
  have h1 : ∀ x : Fin S1x1.numel, x.val = 0 := fun x => by have := x.isLt; change x.val < 1 at this; omega
  have h0 : ∀ x : Fin S_.numel, x.val = 0 := fun x => by have := x.isLt; change x.val < 1 at this; omega
  show FloatOps.hostDivf
      (shapeCast S_ (extractStridedSlice S1x1 ![0, 0] (outArr m c) slices_S16x128_S1x1_0_0) shapeCasts_S1x1_S_ i
        + shapeCast S_ (extractStridedSlice S1x1 ![8, 0] (outArr m c) slices_S16x128_S1x1_8_0) shapeCasts_S1x1_S_ i)
      (FloatOps.ofBits (F := Ideal) .f32 0x4C000000#32) = _
  rw [shapeCast_apply _ shapeCasts_S1x1_S_ i (ix2 0 0) ((h1 _).trans (h0 _).symm),
    shapeCast_apply _ shapeCasts_S1x1_S_ i (ix2 0 0) ((h1 _).trans (h0 _).symm),
    extractStridedSlice_apply ![0, 0] _ slices_S16x128_S1x1_0_0 (ix2 0 0) (ix2 0 0 : S16x128.Idx)
      (fun a => by match a with | ⟨0, _⟩ => rfl | ⟨1, _⟩ => rfl),
    extractStridedSlice_apply ![8, 0] _ slices_S16x128_S1x1_8_0 (ix2 0 0) (ix2 8 0 : S16x128.Idx)
      (fun a => by match a with | ⟨0, _⟩ => rfl | ⟨1, _⟩ => rfl)]

/-- The kernel's result: the total loss (after zero's word) over the word of 2^25. -/
def result (c : Dev nD) : Buf (Elt Ideal) ((c : Thread nD τ).loc main_v6) := fun _ =>
  FloatOps.hostDivf (FloatOps.ofBits (F := Ideal) .f32 0x00000000#32 + ∑ j : S8192x4096.Idx, lossE (argX m c j) (argT m c j))
    (FloatOps.ofBits (F := Ideal) .f32 0x4C000000#32)

/-- What the tail computes is that result. -/
theorem tail_result (c : Dev nD) :
    Pipeline.afterTail₀ cfgs (dats m) 0 (V0 m) [hostOps1] c main_v6 = result m c := by
  rw [tail_eq, outArr_0_0, outArr_8_0]
  have c15 := corner_run m c 0 15 (by decide) (by rw [N32]; decide)
  have c31 := corner_run m c 1 15 (by decide) (by rw [N32]; decide)
  unfold result
  funext _
  refine congrArg (fun v => FloatOps.hostDivf v (FloatOps.ofBits (F := Ideal) .f32 0x4C000000#32)) ?_
  refine Eq.trans ?_ (corners_eq_total m c)
  exact congrArg₂ (· + ·) c15 c31

/-- THE RUN, READ: every weakly fair execution of the idealized kernel terminates with the result buffer at the
    total loss over 2^25 and the two arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 v6_rest).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefSum.lean ====
/-
  The reference program's result is the total loss divided by 2^25.

  Element by element the reference computes exactly the loss of `MarginSum.lossE`: on the extended reals its
  rounding, ceiling, floor and absolute value are the same functions as the ones the loss is written with, its
  constants are broadcasts of the same three binary32 words, and its conversion is the identity.  Its one
  reduction over both axes is the initial value (zero's word) plus the sum over every index.
-/
import proofs.«121235_j88390426951926_1_alg».proof.Proof.Gen.ReferenceIdeal.Read
import proofs.«121235_j88390426951926_1_alg».proof.Proof.MarginSum

noncomputable section

namespace Cert.ReferenceIdeal.RefValue

open Cert.ReferenceIdeal Cert.ReferenceIdeal.Gen Cert.ReferenceIdeal.Read Idealize.ShloMosaic Cert.MarginSum

/-- The array the reference sums, at one index, is the loss of that index's pair. -/
theorem summand_eq (x0 x1 : (⟨S8192x4096, .f32⟩ : BufTy).Contents (Elt Ideal)) (j : S8192x4096.Idx) :
    val_main_v15 (F := Ideal) x0 x1 j = lossE (x0 j) (x1 j) := by
  simp only [val_main_v15_apply, val_main_v14_apply, val_main_cst_2_apply, val_main_v13_apply, val_main_v12_apply,
    val_main_v11_apply, val_main_call2_v0_apply, val_main_call2_v1_apply, val_main_cst_0_apply, val_main_cst_1_apply,
    val_main_v10_apply, val_main_v9_apply, val_main_v8_apply, val_main_v7_apply, val_main_v6_apply, val_main_v5_apply,
    val_main_v4_apply, val_main_v3_apply, val_main_v2_apply, val_main_cst_apply, val_main_v1_apply, val_main_v0_apply]
  rfl

/-- The reference's result: zero's word plus the total loss, over the word of 2^25. -/
theorem result_eq (x0 x1 : (⟨S8192x4096, .f32⟩ : BufTy).Contents (Elt Ideal)) :
    val_main_v17 (F := Ideal) x0 x1
      = fun _ => FloatOps.hostDivf (FloatOps.ofBits (F := Ideal) .f32 0x00000000#32 + ∑ j : S8192x4096.Idx, lossE (x0 j) (x1 j))
          (FloatOps.ofBits (F := Ideal) .f32 0x4C000000#32) := by
  funext i
  rw [val_main_v17_apply, val_main_v16_apply, val_main_cst_4_apply, val_main_cst_3_apply]
  simp only [summand_eq]

end Cert.ReferenceIdeal.RefValue

end
-- ==== Proof.lean ====
/-
  Equivalence, over the extended reals, of a Pallas kernel that computes a mean margin loss with its jnp reference.

  Both programs take two 8192 × 4096 arrays `x` and `t` and return one number.  Element by element the loss is
      max 0 ( |x - rne t| - |x - z| + (eps if x - rne t ≥ 0 else 0) ),   z = ⌈x⌉ if x - rne t ≥ 0 else ⌊x⌋
  (`MarginSum.lossE`); both spell it with the same operations and the same three binary32 words, and on the
  extended reals the host's rounding, ceiling, floor and absolute value are the same functions as the kernel's.

  The reference sums the loss over all indices in one reduction and divides by the word of 2^25 (`RefSum`).

  The kernel sweeps a 2 × 16 grid; step `(core, s)` loads rows `256·(16·core + s) …` of both arrays, sums the block's
  losses (a sum over lanes, then over rows: `StepValue`) and adds that to the corner of an 8 × 128 block that is
  zeroed at `s = 0` and kept in place until the core's last step (`CornerValue`, `RunningCorner`); block `core` of a
  16 × 128 array receives it (`OutputArray`).  The program then adds entries `(0, 0)` and `(8, 0)` of that array
  and divides by the same word of 2^25 (`KernelResult`).

  So both results are (total of the loss) / 2^25: the kernel's total is grouped into thirty-two row blocks in two
  runs of sixteen, the reference's is one sweep, and a finite sum of extended reals does not depend on its grouping
  (addition there is commutative and associative).  The precondition's finiteness is not needed for that.

  The three frames are the programs' runs with the value forgotten; the idealization rewrote nothing, so the
  statement that it is sanctioned is `True`.
-/
import proofs.«121235_j88390426951926_1_alg».proof.Defs
import proofs.«121235_j88390426951926_1_alg».proof.Proof.Gen.Kernel
import proofs.«121235_j88390426951926_1_alg».proof.Proof.Gen.Kernel.Skeleton
import proofs.«121235_j88390426951926_1_alg».proof.Proof.Gen.Kernel.Launch
import proofs.«121235_j88390426951926_1_alg».proof.Proof.Gen.Kernel.Points
import proofs.«121235_j88390426951926_1_alg».proof.Proof.Gen.Kernel.Frame
import proofs.«121235_j88390426951926_1_alg».proof.Proof.Gen.KernelIdeal
import proofs.«121235_j88390426951926_1_alg».proof.Proof.Gen.KernelIdeal.Skeleton
import proofs.«121235_j88390426951926_1_alg».proof.Proof.Gen.KernelIdeal.Launch
import proofs.«121235_j88390426951926_1_alg».proof.Proof.Gen.KernelIdeal.Points
import proofs.«121235_j88390426951926_1_alg».proof.Proof.Gen.KernelIdeal.Frame
import proofs.«121235_j88390426951926_1_alg».proof.Proof.Gen.ReferenceIdeal
import proofs.«121235_j88390426951926_1_alg».proof.Proof.Gen.Pre_finite_inputs
import proofs.«121235_j88390426951926_1_alg».proof.Proof.Gen.ReferenceIdeal.Run
import proofs.«121235_j88390426951926_1_alg».proof.Proof.Gen.ReferenceIdeal.Read
import proofs.«121235_j88390426951926_1_alg».proof.Proof.KernelResult
import proofs.«121235_j88390426951926_1_alg».proof.Proof.RefSum
import Idealize.ShloMosaic.Adequacy
import Idealize.ShloMosaic.Init

noncomputable section

namespace Cert.Proof

open Idealize.ShloMosaic Idealize.SL.Sem

/-- The word-level kernel runs to the end without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the total loss over 2^25. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _).trans ((Cert.ReferenceIdeal.RefValue.result_eq _ _).trans ?_)
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
